-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1024x1024 : Shape := ⟨2, ![1024, 1024]⟩
abbrev S16x1024 : Shape := ⟨2, ![16, 1024]⟩
abbrev S1024x16 : Shape := ⟨2, ![1024, 16]⟩
abbrev S1024 : Shape := ⟨1, ![1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S8192x4096, .f32⟩
  | .hbm, ⟨7, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LoraLinear.lean ====
/-
  The function both programs compute, over the extended reals, index by index:

      out[b, s, o] = Σ_d x[b, s, d] · (W[o, d] + 2 · Σ_r B[o, r] · A[r, d]) + bias[o]

  a linear layer whose weight is the base weight plus twice the rank-16 product B·A. The scale 2 is kept as the
  float word both programs print, so it is never evaluated. `flat` is the same function with the two leading
  axes of x and of the result merged into one axis of 8192 = 4 · 2048 rows, which is how the kernel sees them.
-/
import Idealize.ShloMosaic.PureOps.Ideal
import Idealize.ShloMosaic.Lib.ValueIdx

open scoped BigOperators

noncomputable section

namespace Cert.Lora

open Idealize.ShloMosaic Idealize.ShloMosaic.ValueIdx

/-- The scale, as the printed f32 word for 2.0. -/
abbrev two : EReal := Ideal.ofBits .f32 0x40000000#32

/-- One entry of the effective weight: the base weight plus twice the low-rank product. -/
def weff (W : (⟨2, ![4096, 4096]⟩ : Shape).Idx → EReal) (A : (⟨2, ![16, 4096]⟩ : Shape).Idx → EReal)
    (B : (⟨2, ![4096, 16]⟩ : Shape).Idx → EReal) (o d : Fin 4096) : EReal :=
  W (ix2 o d) + two * ∑ r : Fin 16, B (ix2 o r) * A (ix2 r d)

/-- One output entry on the three-axis input, at explicit coordinates. -/
def outAt (x : (⟨3, ![4, 2048, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨1, ![4096]⟩ : Shape).Idx → EReal) (b : Fin 4) (s : Fin 2048) (o : Fin 4096) : EReal :=
  (∑ d : Fin 4096, x (ix3 b s d) * weff W A B o d) + bias (ix1 o)

/-- The layer's output on the three-axis input. -/
def out (x : (⟨3, ![4, 2048, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨1, ![4096]⟩ : Shape).Idx → EReal) : (⟨3, ![4, 2048, 4096]⟩ : Shape).Idx → EReal :=
  fun i => outAt x W A B bias (i 0) (i 1) (i 2)

/-- One output entry on the input with its two leading axes merged, at explicit coordinates. -/
def flatAt (X : (⟨2, ![8192, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨1, ![4096]⟩ : Shape).Idx → EReal) (r : Fin 8192) (o : Fin 4096) : EReal :=
  (∑ d : Fin 4096, X (ix2 r d) * weff W A B o d) + bias (ix1 o)

/-- The same function on the merged input. -/
def flat (X : (⟨2, ![8192, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨1, ![4096]⟩ : Shape).Idx → EReal) : (⟨2, ![8192, 4096]⟩ : Shape).Idx → EReal :=
  fun j => flatAt X W A B bias (j 0) (j 1)

end Cert.Lora

end
-- ==== Proof.RefValue.lean ====
/-
  The reference's result, index by index: its nine host operations compose to

      out[b, s, o] = Σ_d x[b, s, d] · (W[o, d] + 2 · Σ_r B[o, r] · A[r, d]) + bias[o],

  the contraction over d being the einsum, the inner one the product B·A, the two broadcasts of the bias reading
  its entry o.
-/
import proofs.«133577_j11055245819948_1_alg».proof.Proof.Gen.ReferenceIdeal.Run
import proofs.«133577_j11055245819948_1_alg».proof.Proof.Gen.ReferenceIdeal.Read
import proofs.«133577_j11055245819948_1_alg».proof.Proof.LoraLinear

open scoped BigOperators

noncomputable section

namespace Cert.ReferenceIdeal.RefValue

open Cert.ReferenceIdeal Cert.ReferenceIdeal.Gen Cert.ReferenceIdeal.Read
open Idealize.ShloMosaic Idealize.ShloMosaic.ValueIdx

/-- The einsum's left operand is read at (b, s, d). -/
theorem lidx4 (b : Fin 4) (s : Fin 2048) (o k : Fin 4096) : lidx_main_v4 (ix3 b s o) k = ix3 b s k :=
  funext fun a => Fin.ext (by match a with | ⟨0, _⟩ => rfl | ⟨1, _⟩ => rfl | ⟨2, _⟩ => rfl)

/-- Its right operand, the effective weight, at (o, d). -/
theorem ridx4 (b : Fin 4) (s : Fin 2048) (o k : Fin 4096) : ridx_main_v4 (ix3 b s o) k = ix2 o k :=
  funext fun a => Fin.ext (by match a with | ⟨0, _⟩ => rfl | ⟨1, _⟩ => rfl)

/-- The low-rank product reads B at (o, r) -/
theorem lidx0 (o d : Fin 4096) (r : Fin 16) : lidx_main_v0 (ix2 o d) r = ix2 o r :=
  funext fun a => Fin.ext (by match a with | ⟨0, _⟩ => rfl | ⟨1, _⟩ => rfl)

/-- and A at (r, d). -/
theorem ridx0 (o d : Fin 4096) (r : Fin 16) : ridx_main_v0 (ix2 o d) r = ix2 r d :=
  funext fun a => Fin.ext (by match a with | ⟨0, _⟩ => rfl | ⟨1, _⟩ => rfl)

/-- The bias, broadcast twice, is read at o. -/
theorem idx56 (b : Fin 4) (s : Fin 2048) (o : Fin 4096) : idx_main_v5 (idx_main_v6 (ix3 b s o)) = ix1 o :=
  funext fun a => Fin.ext (by match a with | ⟨0, _⟩ => rfl)

/-- One entry of the effective weight as the reference computes it. -/
theorem weff_apply (x1 : (⟨S4096x4096, .f32⟩ : BufTy).Contents (Elt Ideal))
    (x2 : (⟨S16x4096, .f32⟩ : BufTy).Contents (Elt Ideal)) (x3 : (⟨S4096x16, .f32⟩ : BufTy).Contents (Elt Ideal)) (o d : Fin 4096) :
    val_main_v3 (F := Ideal) x1 x2 x3 (ix2 o d) = Cert.Lora.weff x1 x2 x3 o d := by
  rw [val_main_v3_apply, val_main_v2_apply, val_main_v1_apply, val_main_cst_apply, val_main_v0_apply]
  unfold Cert.Lora.weff
  simp only [lidx0, ridx0]
  rfl

/-- The reference's last stage is the layer's output. -/
theorem val_eq_out (x0 : (⟨S4x2048x4096, .f32⟩ : BufTy).Contents (Elt Ideal)) (x1 : (⟨S4096x4096, .f32⟩ : BufTy).Contents (Elt Ideal))
    (x2 : (⟨S16x4096, .f32⟩ : BufTy).Contents (Elt Ideal)) (x3 : (⟨S4096x16, .f32⟩ : BufTy).Contents (Elt Ideal))
    (x4 : (⟨S4096, .f32⟩ : BufTy).Contents (Elt Ideal)) :
    val_main_v7 (F := Ideal) x0 x1 x2 x3 x4 = Cert.Lora.out x0 x1 x2 x3 x4 := by
  funext i
  obtain ⟨b, s, o, rfl⟩ : ∃ (b : Fin 4) (s : Fin 2048) (o : Fin 4096), i = ix3 b s o := ⟨i 0, i 1, i 2, eq_ix3 i⟩
  show _ = Cert.Lora.outAt x0 x1 x2 x3 x4 b s o
  rw [val_main_v7_apply, val_main_v4_apply, val_main_v6_apply, val_main_v5_apply, idx56]
  unfold Cert.Lora.outAt
  refine congrArg (· + x4 (ix1 o)) (Finset.sum_congr rfl fun k _ => ?_)
  rw [lidx4, ridx4, weff_apply]

end Cert.ReferenceIdeal.RefValue

end
-- ==== Proof.Pieces.lean ====
/-
  What one run of the kernel body leaves behind, in each of its three control cases, as values of the blocks it
  loads (any float instance):

  * first block of the contraction axis (the accumulator is reset): the accumulator ends at step(0), the
    accumulation step applied to the zero block;
  * a middle block: the accumulator ends at step(acc), acc what the previous point left;
  * last block: the accumulator ends at step(acc) and the output block at step(acc) plus the bias row.

  Here step(acc) = acc + x · (w + 2 · b · a)ᵀ is the body's second stored value as a function of the loaded
  blocks w, a, b, x and the accumulator. Every load and store covers its whole buffer, so each value is just the
  stored term with the loads replaced by the buffers' contents.
-/
import proofs.«133577_j11055245819948_1_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- First block: the accumulator is zeroed, read back and stepped. -/
theorem scratch_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .f32) (x1 : Vec F S1024x1024 .f32) (x2 : Vec F S16x1024 .f32) (x3 : Vec F S1024x16 .f32) (x4 : Vec F S1024 .f32) :
    sout0_A_0 c i arg3 harg3 arg4 harg4 arg5 harg5 arg6 harg6 arg7 harg7 arg8 harg8 arg9 harg9 hc0 hc1 x0 x1 x2 x3 x4 = k0_pay2 x1 x2 x3 x0 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S16x1024) hz, View.ld_unit_zero (S := S1024x16) hz, View.ld_unit_zero (S := S1024) hz1]

/-- Middle block: the accumulator the point before left, stepped. -/
theorem scratch_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x1024 .f32) (x1 : Vec F S1024x1024 .f32) (x2 : Vec F S16x1024 .f32) (x3 : Vec F S1024x16 .f32) (x4 : Vec F S1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x1 x2 x3 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S16x1024) hz, View.ld_unit_zero (S := S1024x16) hz, View.ld_unit_zero (S := S1024) hz1]

/-- Last block: the accumulator, stepped once more; -/
theorem scratch_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .f32) (x1 : Vec F S1024x1024 .f32) (x2 : Vec F S16x1024 .f32) (x3 : Vec F S1024x16 .f32) (x4 : Vec F S1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x1 x2 x3 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S16x1024) hz, View.ld_unit_zero (S := S1024x16) hz, View.ld_unit_zero (S := S1024) hz1]

/-- and the output block: that accumulator plus the bias row. -/
theorem out_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .f32) (x1 : Vec F S1024x1024 .f32) (x2 : Vec F S16x1024 .f32) (x3 : Vec F S1024x16 .f32) (x4 : Vec F S1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x1 x2 x3 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S16x1024) hz, View.ld_unit_zero (S := S1024x16) hz, View.ld_unit_zero (S := S1024) hz1]

end Cert.KernelIdeal.Piece

end
-- ==== Proof.Blocks.lean ====
/-
  The grid is 8 × 4 × 4 = 128 points; point t has row block t / 16, column block (t / 4) % 4 and contraction
  block t % 4. At point t the kernel sees

    x-block    = rows  1024·(t/16) …,      columns 1024·(t%4) …  of the merged input [8192, 4096]
    w-block    = rows  1024·((t/4)%4) …,   columns 1024·(t%4) …  of the weight [4096, 4096]
    a-block    = all 16 rows,              columns 1024·(t%4) …  of A [16, 4096]
    b-block    = rows  1024·((t/4)%4) …,   all 16 columns        of B [4096, 16]
    bias-block = entries 1024·((t/4)%4) …                        of the bias [4096]

  and the accumulator is reset exactly at the points with t % 4 = 0, stepped at every point, and written out
  with the bias at the points with t % 4 = 3. This module names the blocks at their literal types, reads each
  as entries of its array, and states the accumulator's recurrence point by point (any float instance).
-/
import proofs.«133577_j11055245819948_1_alg».proof.Proof.Pieces
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The blocks and the arrays, at their literal types -/

abbrev xblk (c : Dev nD) (t : Fin cfg0.N) : Vec F S1024x1024 .f32 := iblk m c 0 t
abbrev wblk (c : Dev nD) (t : Fin cfg0.N) : Vec F S1024x1024 .f32 := iblk m c 1 t
abbrev ablk (c : Dev nD) (t : Fin cfg0.N) : Vec F S16x1024 .f32 := iblk m c 2 t
abbrev bblk (c : Dev nD) (t : Fin cfg0.N) : Vec F S1024x16 .f32 := iblk m c 3 t
abbrev biasblk (c : Dev nD) (t : Fin cfg0.N) : Vec F S1024 .f32 := iblk m c 4 t

abbrev xarr (c : Dev nD) : Vec F S8192x4096 .f32 := V m c main_v0
abbrev warr (c : Dev nD) : Vec F S4096x4096 .f32 := V m c main_arg1
abbrev aarr (c : Dev nD) : Vec F S16x4096 .f32 := V m c main_arg2
abbrev barr (c : Dev nD) : Vec F S4096x16 .f32 := V m c main_arg3
abbrev biasarr (c : Dev nD) : Vec F S4096 .f32 := V m c main_arg4

/-- The accumulation step at point t: acc + x-block · (w-block + 2 · b-block · a-block)ᵀ. -/
abbrev step (c : Dev nD) (t : Fin cfg0.N) (acc : Vec F S1024x1024 .f32) : Vec F S1024x1024 .f32 :=
  k0_pay2 (wblk m c t) (ablk m c t) (bblk m c t) (xblk m c t) acc

/-! ## The index maps, decided over the grid -/

theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 1) = t.val / 4 % 4
    ∧ win0_5.index t (0 : Fin 2) = t.val / 16 ∧ win0_5.index t (1 : Fin 2) = t.val / 4 % 4 :=
  (by decide +kernel : ∀ t : Fin grid0.N, _)

/-! ## Each block entry is an entry of its array -/

theorem xblk_apply (c : Dev nD) (t : Fin cfg0.N) (p e : Fin 1024) (r : Fin 8192) (d : Fin 4096)
    (hr : r.val = t.val / 16 * 1024 + p.val) (hd : d.val = t.val % 4 * 1024 + e.val) :
    xblk m c t (ix2 p e) = xarr m c (ix2 r d) := by
  obtain ⟨e0, e1, -⟩ := idx_facts t
  unfold xblk iblk
  rw [View.read_apply]
  show V m c main_v0 _ = V m c main_v0 _
  congr 1
  funext a
  apply Fin.ext
  match a with
  | ⟨0, _⟩ => show win0_0.index t 0 * 1024 + 1 * p.val = r.val; rw [e0, hr]; omega
  | ⟨1, _⟩ => show win0_0.index t 1 * 1024 + 1 * e.val = d.val; rw [e1, hd]; omega

theorem wblk_apply (c : Dev nD) (t : Fin cfg0.N) (q e : Fin 1024) (o d : Fin 4096)
    (ho : o.val = t.val / 4 % 4 * 1024 + q.val) (hd : d.val = t.val % 4 * 1024 + e.val) :
    wblk m c t (ix2 q e) = warr m c (ix2 o d) := by
  obtain ⟨-, -, e0, e1, -⟩ := idx_facts t
  unfold wblk iblk
  rw [View.read_apply]
  show V m c main_arg1 _ = V m c main_arg1 _
  congr 1
  funext a
  apply Fin.ext
  match a with
  | ⟨0, _⟩ => show win0_1.index t 0 * 1024 + 1 * q.val = o.val; rw [e0, ho]; omega
  | ⟨1, _⟩ => show win0_1.index t 1 * 1024 + 1 * e.val = d.val; rw [e1, hd]; omega

theorem ablk_apply (c : Dev nD) (t : Fin cfg0.N) (r : Fin 16) (e : Fin 1024) (d : Fin 4096)
    (hd : d.val = t.val % 4 * 1024 + e.val) :
    ablk m c t (ix2 r e) = aarr m c (ix2 r d) := by
  obtain ⟨-, -, -, -, e0, e1, -⟩ := idx_facts t
  unfold ablk iblk
  rw [View.read_apply]
  show V m c main_arg2 _ = V m c main_arg2 _
  congr 1
  funext a
  apply Fin.ext
  match a with
  | ⟨0, _⟩ => show win0_2.index t 0 * 16 + 1 * r.val = r.val; rw [e0]; omega
  | ⟨1, _⟩ => show win0_2.index t 1 * 1024 + 1 * e.val = d.val; rw [e1, hd]; omega

theorem bblk_apply (c : Dev nD) (t : Fin cfg0.N) (q : Fin 1024) (r : Fin 16) (o : Fin 4096)
    (ho : o.val = t.val / 4 % 4 * 1024 + q.val) :
    bblk m c t (ix2 q r) = barr m c (ix2 o r) := by
  obtain ⟨-, -, -, -, -, -, e0, e1, -⟩ := idx_facts t
  unfold bblk iblk
  rw [View.read_apply]
  show V m c main_arg3 _ = V m c main_arg3 _
  congr 1
  funext a
  apply Fin.ext
  match a with
  | ⟨0, _⟩ => show win0_3.index t 0 * 1024 + 1 * q.val = o.val; rw [e0, ho]; omega
  | ⟨1, _⟩ => show win0_3.index t 1 * 16 + 1 * r.val = r.val; rw [e1]; omega

theorem biasblk_apply (c : Dev nD) (t : Fin cfg0.N) (q : Fin 1024) (o : Fin 4096)
    (ho : o.val = t.val / 4 % 4 * 1024 + q.val) :
    biasblk m c t (ix1 q) = biasarr m c (ix1 o) := by
  obtain ⟨-, -, -, -, -, -, -, -, e0, -⟩ := idx_facts t
  unfold biasblk iblk
  rw [View.read_apply]
  show V m c main_arg4 _ = V m c main_arg4 _
  congr 1
  funext a
  apply Fin.ext
  match a with
  | ⟨0, _⟩ => show win0_4.index t 0 * 1024 + 1 * q.val = o.val; rw [e0, ho]; omega

/-! ## The accumulator, point by point -/

/-- At a point that starts a run of four (t % 4 = 0) the accumulator ends at step(0). -/
theorem acc_first (c : Dev nD) (t : Fin cfg0.N) (h0 : t.val % 4 = 0) :
    (outsAt0 m c t.val t.isLt).2 = step m c t (k0_pay1 (F := F)) := by
  have h1 : ¬t.val % 4 = 3 := by omega
  rw [outsAt0_A m c t h0 h1]
  dsimp only
  exact Piece.scratch_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At any other point it ends at step of what the point before left. -/
theorem acc_next (c : Dev nD) (t : Fin cfg0.N) (h0 : ¬t.val % 4 = 0) :
    (outsAt0 m c t.val t.isLt).2
      = step m c t (outsAt0 m c (t.val - 1) (Nat.lt_of_le_of_lt (Nat.sub_le _ _) t.isLt)).2 := by
  by_cases h1 : t.val % 4 = 3
  · rw [outsAt0_C m c t h0 h1]
    dsimp only
    exact Piece.scratch_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
      (outsAt0 m c (t.val - 1) (Nat.lt_of_le_of_lt (Nat.sub_le _ _) t.isLt)).2
  · rw [outsAt0_B m c t h0 h1]
    dsimp only
    exact Piece.scratch_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t)
      (outsAt0 m c (t.val - 1) (Nat.lt_of_le_of_lt (Nat.sub_le _ _) t.isLt)).2

/-- At a point that ends a run of four (t % 4 = 3) the output block is that accumulator plus the bias row. -/
theorem out_last (c : Dev nD) (t : Fin cfg0.N) (h3 : t.val % 4 = 3) :
    (outsAt0 m c t.val t.isLt).1
      = k0_pay3 (step m c t (outsAt0 m c (t.val - 1) (Nat.lt_of_le_of_lt (Nat.sub_le _ _) t.isLt)).2) (biasblk m c t) := by
  have h0 : ¬t.val % 4 = 0 := by omega
  rw [outsAt0_C m c t h0 h3]
  dsimp only
  exact Piece.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t)
    (outsAt0 m c (t.val - 1) (Nat.lt_of_le_of_lt (Nat.sub_le _ _) t.isLt)).2

/-! ## The merged input is the three-axis input re-laid -/

/-- The one host operation before the region merges the two leading axes of x. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

end Cert.KernelIdeal.Blocks

end
-- ==== Proof.Payloads.lean ====
/-
  The kernel body's three stored values, read at an index over the extended reals.

  * the reset stores 0;
  * the accumulation step stores acc[p, q] + Σ_e x[p, e] · (w[q, e] + 2 · Σ_r b[q, r] · a[r, e]) — the inner sum is
    the rank-16 product of the B-block and the A-block, the outer one the product of the x-block with the
    transposed effective-weight block (both operands contracted along their second axis); the narrowing of the
    two operands to bf16 is the identity on exact values;
  * the epilogue stores acc[p, q] + bias[q], the bias block cast to one row and broadcast down the rows.
-/
import proofs.«133577_j11055245819948_1_alg».proof.Proof.Gen.KernelIdeal.Skeleton
import proofs.«133577_j11055245819948_1_alg».proof.Proof.LoraLinear
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Pay

open Cert.KernelIdeal Cert.KernelIdeal.Gen
open Idealize.ShloMosaic Idealize.ShloMosaic.ValueIdx

/-! ## The rank-16 product: B-block [1024, 16] times A-block [16, 1024] -/

theorem lhs_lr_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_lr_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_lr_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_lr_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry (q, e) of the rank-16 product into a zero accumulator: Σ_r b[q, r] · a[r, e]. -/
theorem lowrank_apply (b : FVec Ideal S1024x16 .f32) (a : FVec Ideal S16x1024 .f32) (q e : Fin 1024) :
    matmul dot_S1024x16_S16x1024_S1024x1024_1_0_0_1_n_n none b a (constant S1024x1024 .f32 0x00000000#32) (ix2 q e)
      = ∑ r : Fin 16, b (ix2 q r) * a (ix2 r e) := by
  show FloatOps.matmul dot_S1024x16_S16x1024_S1024x1024_1_0_0_1_n_n none b a (constant S1024x1024 .f32 0x00000000#32) (ix2 q e) = _
  rw [Ideal.matmul_constant_zero_apply, ← Equiv.sum_comp (contrEquiv1 dot_S1024x16_S16x1024_S1024x1024_1_0_0_1_n_n 16 rfl rfl).symm]
  refine Finset.sum_congr rfl fun r _ => ?_
  have hk := contrEquiv1_symm_val dot_S1024x16_S16x1024_S1024x1024_1_0_0_1_n_n 16 rfl rfl r
  have el : dot_S1024x16_S16x1024_S1024x1024_1_0_0_1_n_n.lhsIdx (ix2 q e) ((contrEquiv1 dot_S1024x16_S16x1024_S1024x1024_1_0_0_1_n_n 16 rfl rfl).symm r) = ix2 q r := funext fun a => Fin.ext (by
    match a with
    | ⟨0, _⟩ => exact lhs_lr_0 _ _
    | ⟨1, _⟩ => exact (lhs_lr_1 _ _).trans hk)
  have er : dot_S1024x16_S16x1024_S1024x1024_1_0_0_1_n_n.rhsIdx (ix2 q e) ((contrEquiv1 dot_S1024x16_S16x1024_S1024x1024_1_0_0_1_n_n 16 rfl rfl).symm r) = ix2 r e := funext fun a => Fin.ext (by
    match a with
    | ⟨0, _⟩ => exact (rhs_lr_0 _ _).trans hk
    | ⟨1, _⟩ => exact rhs_lr_1 _ _)
  rw [el, er]

/-! ## The main product: x-block [1024, 1024] times the transposed weight block [1024, 1024] -/

theorem lhs_xw_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_xw_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_xw_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_xw_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry (p, q) of the main product into a zero accumulator: Σ_e x[p, e] · w[q, e]. -/
theorem contract_apply {φ₁ φ₂ : FTy} (x : FVec Ideal S1024x1024 φ₁) (w : FVec Ideal S1024x1024 φ₂) (p q : Fin 1024) :
    matmul dot_S1024x1024_S1024x1024_S1024x1024_1_1_0_0_n_n none x w (constant S1024x1024 .f32 0x00000000#32) (ix2 p q)
      = ∑ e : Fin 1024, x (ix2 p e) * w (ix2 q e) := by
  show FloatOps.matmul dot_S1024x1024_S1024x1024_S1024x1024_1_1_0_0_n_n none x w (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun e _ => ?_
  have hk := contrEquiv1_symm_val dot_S1024x1024_S1024x1024_S1024x1024_1_1_0_0_n_n 1024 rfl rfl e
  have el : dot_S1024x1024_S1024x1024_S1024x1024_1_1_0_0_n_n.lhsIdx (ix2 p q) ((contrEquiv1 dot_S1024x1024_S1024x1024_S1024x1024_1_1_0_0_n_n 1024 rfl rfl).symm e) = ix2 p e := funext fun a => Fin.ext (by
    match a with
    | ⟨0, _⟩ => exact lhs_xw_0 _ _
    | ⟨1, _⟩ => exact (lhs_xw_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm e) = ix2 q e := funext fun a => Fin.ext (by
    match a with
    | ⟨0, _⟩ => exact rhs_xw_0 _ _
    | ⟨1, _⟩ => exact (rhs_xw_1 _ _).trans hk)
  rw [el, er]

/-! ## The three stored values -/

/-- The reset stores zero. -/
theorem pay1_apply (j : S1024x1024.Idx) : k0_pay1 (F := Ideal) j = 0 := by
  unfold k0_pay1
  simp only [shapeCast_self]
  exact Ideal.ofBits_zero_f32

/-- The accumulation step. -/
theorem pay2_apply (w : Vec Ideal S1024x1024 .f32) (a : Vec Ideal S16x1024 .f32) (b : Vec Ideal S1024x16 .f32)
    (x acc : Vec Ideal S1024x1024 .f32) (p q : Fin 1024) :
    k0_pay2 (F := Ideal) w a b x acc (ix2 p q)
      = acc (ix2 p q) + ∑ e : Fin 1024, x (ix2 p e)
          * (w (ix2 q e) + Cert.Lora.two * ∑ r : Fin 16, b (ix2 q r) * a (ix2 r e)) := by
  unfold k0_pay2
  simp only [shapeCast_self]
  rw [addf_apply, contract_apply]
  refine congrArg (acc (ix2 p q) + ·) (Finset.sum_congr rfl fun e _ => ?_)
  rw [truncf_apply, truncf_apply, addf_apply, mulf_apply, broadcast_apply, lowrank_apply]
  rfl

/-- The epilogue adds the bias entry of the column. -/
theorem pay3_apply (acc : Vec Ideal S1024x1024 .f32) (bias : Vec Ideal S1024 .f32) (p q : Fin 1024) :
    k0_pay3 (F := Ideal) acc bias (ix2 p q) = acc (ix2 p q) + bias (ix1 q) := by
  unfold k0_pay3
  rw [addf_apply]
  refine congrArg (acc (ix2 p q) + ·) ?_
  rw [broadcastTo_apply _ broadcasts_S1x1024_S1024x1024 (ix2 p q) (ix2 (0 : Fin 1) q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])]
  exact shapeCast_apply _ shapeCasts_S1024_S1x1024 (ix2 (0 : Fin 1) q) (ix1 q) (by
    rw [Shape.rowMajor_val_one, Shape.rowMajor_val_two]; show q.val = 0 * 1024 + q.val; omega)

end Cert.KernelIdeal.Pay

end
-- ==== Proof.BlockSum.lean ====
/-
  A sum over 4096 terms, taken in four consecutive blocks of 1024 and accumulated from zero, is the whole sum.
  This is the one algebraic law the certificate needs: the kernel accumulates the contraction axis block by
  block, the reference contracts it at once. Only commutativity and associativity of addition are used, so it
  holds in any commutative additive monoid, the extended reals included, with no finiteness assumption.
-/
import Idealize.ShloMosaic.Lib.ValueIdx

open scoped BigOperators

namespace Cert.Lora

/-- Position `e` of block `k` on an axis of 4096 = 4 · 1024. -/
def cat (k : Fin 4) (e : Fin 1024) : Fin 4096 := ⟨k.val * 1024 + e.val, by have := k.isLt; have := e.isLt; omega⟩

@[simp] theorem cat_val (k : Fin 4) (e : Fin 1024) : (cat k e).val = k.val * 1024 + e.val := rfl

/-- The pair (block, position in block) of a position on the long axis. -/
def catEquiv : Fin 4 × Fin 1024 ≃ Fin 4096 where
  toFun p := cat p.1 p.2
  invFun d := (⟨d.val / 1024, by have := d.isLt; omega⟩, ⟨d.val % 1024, Nat.mod_lt _ (by decide)⟩)
  left_inv p := by
    obtain ⟨k, e⟩ := p
    have hk := k.isLt; have he := e.isLt
    apply Prod.ext
    · apply Fin.ext; show (k.val * 1024 + e.val) / 1024 = k.val; omega
    · apply Fin.ext; show (k.val * 1024 + e.val) % 1024 = e.val; omega
  right_inv d := by
    apply Fin.ext
    show d.val / 1024 * 1024 + d.val % 1024 = d.val
    omega

/-- The whole sum is the sum of the four block sums. -/
theorem sum_cat {M : Type*} [AddCommMonoid M] (f : Fin 4096 → M) :
    ∑ d, f d = ∑ k : Fin 4, ∑ e : Fin 1024, f (cat k e) := by
  rw [← Equiv.sum_comp catEquiv f, Fintype.sum_prod_type]
  rfl

/-- Accumulating the four block sums in order from zero gives the whole sum. -/
theorem chain_eq_sum {M : Type*} [AddCommMonoid M] (f : Fin 4096 → M) :
    (((0 + ∑ e : Fin 1024, f (cat 0 e)) + ∑ e : Fin 1024, f (cat 1 e)) + ∑ e : Fin 1024, f (cat 2 e))
      + ∑ e : Fin 1024, f (cat 3 e) = ∑ d, f d := by
  rw [sum_cat, Fin.sum_univ_four, zero_add]

end Cert.Lora
-- ==== Proof.KernelValue.lean ====
/-
  What the kernel's result holds, over the extended reals.

  A block of the merged output [8192, 4096] is written once, at the last of the four points that share its row
  and column block. Unrolling the accumulator over those four points, entry (p, q) of the written block is

      ((((0 + P₀) + P₁) + P₂) + P₃) + bias,   P_k = Σ_{e < 1024} x[r, 1024k + e] · weff[o, 1024k + e],

  with r and o the entry's row and column in the whole arrays and weff = W + 2 · B · A. Regrouping the four
  block sums into one sum over the 4096 positions gives the linear layer's entry. The written blocks tile the
  array, so the whole merged output is the layer's output, and the host operation after the region splits its
  row axis back into (4, 2048).
-/
import proofs.«133577_j11055245819948_1_alg».proof.Proof.Blocks
import proofs.«133577_j11055245819948_1_alg».proof.Proof.Payloads
import proofs.«133577_j11055245819948_1_alg».proof.Proof.BlockSum
import Idealize.ShloMosaic.Lib.Pipeline.Value
import Idealize.ShloMosaic.Lib.StableHlo.Run

set_option maxRecDepth 16384

open scoped BigOperators

noncomputable section

namespace Cert.KernelIdeal.KValue

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The merged output as the layer's function of the arrays the region finds. -/
abbrev G (c : Dev nD) : Vec Ideal S8192x4096 .f32 :=
  Cert.Lora.flat (xarr m c) (warr m c) (aarr m c) (barr m c) (biasarr m c)

/-- One term of the contraction at row r, column o, position d. -/
abbrev term (c : Dev nD) (r : Fin 8192) (o d : Fin 4096) : EReal :=
  xarr m c (ix2 r d) * Cert.Lora.weff (warr m c) (aarr m c) (barr m c) o d

/-- The step at point t adds to entry (p, q) the block sum over contraction block t % 4. -/
theorem step_apply (c : Dev nD) (t : Fin cfg0.N) (acc : Vec Ideal S1024x1024 .f32) (p q : Fin 1024)
    (r : Fin 8192) (o : Fin 4096) (k : Fin 4)
    (hr : r.val = t.val / 16 * 1024 + p.val) (ho : o.val = t.val / 4 % 4 * 1024 + q.val) (hk : k.val = t.val % 4) :
    step m c t acc (ix2 p q) = acc (ix2 p q) + ∑ e : Fin 1024, term m c r o (Cert.Lora.cat k e) := by
  show k0_pay2 (wblk m c t) (ablk m c t) (bblk m c t) (xblk m c t) acc (ix2 p q) = _
  rw [Pay.pay2_apply]
  refine congrArg (acc (ix2 p q) + ·) (Finset.sum_congr rfl fun e _ => ?_)
  have hd : (Cert.Lora.cat k e).val = t.val % 4 * 1024 + e.val := by rw [Cert.Lora.cat_val, hk]
  rw [xblk_apply m c t p e r (Cert.Lora.cat k e) hr hd, wblk_apply m c t q e o (Cert.Lora.cat k e) ho hd]
  unfold term Cert.Lora.weff
  refine congrArg (fun z => xarr m c (ix2 r (Cert.Lora.cat k e)) * (warr m c (ix2 o (Cert.Lora.cat k e)) + Cert.Lora.two * z))
    (Finset.sum_congr rfl fun j _ => ?_)
  rw [bblk_apply m c t q j o ho, ablk_apply m c t j e (Cert.Lora.cat k e) hd]

/-- Entry (p, q) of the block written at a point with t % 4 = 3 is the layer's entry (r, o). -/
theorem blk_value (c : Dev nD) (t : Fin cfg0.N) (h3 : t.val % 4 = 3) (p q : Fin 1024) (r : Fin 8192) (o : Fin 4096)
    (hr : r.val = t.val / 16 * 1024 + p.val) (ho : o.val = t.val / 4 % 4 * 1024 + q.val) :
    (outsAt0 m c t.val t.isLt).1 (ix2 p q)
      = Cert.Lora.flatAt (xarr m c) (warr m c) (aarr m c) (barr m c) (biasarr m c) r o := by
  have hN : cfg0.N = 128 := N_0
  have ht := t.isLt
  have l2 : t.val - 1 < cfg0.N := by omega
  have l1 : t.val - 1 - 1 < cfg0.N := by omega
  have l0 : t.val - 1 - 1 - 1 < cfg0.N := by omega
  have e2 := acc_next m c ⟨t.val - 1, l2⟩ (by show ¬(t.val - 1) % 4 = 0; omega)
  have e1 := acc_next m c ⟨t.val - 1 - 1, l1⟩ (by show ¬(t.val - 1 - 1) % 4 = 0; omega)
  have e0 := acc_first m c ⟨t.val - 1 - 1 - 1, l0⟩ (by show (t.val - 1 - 1 - 1) % 4 = 0; omega)
  rw [out_last m c t h3, Pay.pay3_apply,
    step_apply m c t _ p q r o 3 hr ho (by show 3 = t.val % 4; omega)]
  rw [show (outsAt0 m c (t.val - 1) (Nat.lt_of_le_of_lt (Nat.sub_le _ _) t.isLt)).2 = _ from e2,
    step_apply m c ⟨t.val - 1, l2⟩ _ p q r o 2 (by show r.val = (t.val - 1) / 16 * 1024 + p.val; omega)
      (by show o.val = (t.val - 1) / 4 % 4 * 1024 + q.val; omega) (by show 2 = (t.val - 1) % 4; omega)]
  rw [show (outsAt0 m c (t.val - 1 - 1) _).2 = _ from e1,
    step_apply m c ⟨t.val - 1 - 1, l1⟩ _ p q r o 1 (by show r.val = (t.val - 1 - 1) / 16 * 1024 + p.val; omega)
      (by show o.val = (t.val - 1 - 1) / 4 % 4 * 1024 + q.val; omega) (by show 1 = (t.val - 1 - 1) % 4; omega)]
  rw [show (outsAt0 m c (t.val - 1 - 1 - 1) _).2 = _ from e0,
    step_apply m c ⟨t.val - 1 - 1 - 1, l0⟩ _ p q r o 0 (by show r.val = (t.val - 1 - 1 - 1) / 16 * 1024 + p.val; omega)
      (by show o.val = (t.val - 1 - 1 - 1) / 4 % 4 * 1024 + q.val; omega) (by show 0 = (t.val - 1 - 1 - 1) % 4; omega),
    Pay.pay1_apply, biasblk_apply m c t q o ho]
  exact congrArg (· + biasarr m c (ix1 o)) (Cert.Lora.chain_eq_sum (fun d => term m c r o d))

/-! ## From the written blocks to the whole array -/

/-- What a writing point writes back is its block of the layer's output. -/
theorem flushed_eq (c : Dev nD) (t : Fin cfg0.N) (hf : (cfg0.win 5).flush t = true) :
    (dats m 0 c).flushed 5 t = ((cfg0.win 5).blk t).view.read (Elt Ideal) (G m c) := by
  have h3 : t.val % 4 = 3 := (flush0_5 t).mp hf
  obtain ⟨-, -, -, -, -, -, -, -, -, e9, e10⟩ := idx_facts t
  show (cfg0.win 5).cut (grid0.coords t) ((dats m 0 c).after 5 t) = _
  rw [after0_5]
  funext y
  have hy0 : (y 0).val < 1024 := (y 0).isLt
  have hy1 : (y 1).val < 1024 := (y 1).isLt
  have hy : y = ix2 (⟨(y 0).val, hy0⟩ : Fin 1024) (⟨(y 1).val, hy1⟩ : Fin 1024) :=
    funext fun a => by match a with | ⟨0, _⟩ => rfl | ⟨1, _⟩ => rfl
  show (outsAt0 m c t.val t.isLt).1 y
    = Cert.Lora.flatAt (xarr m c) (warr m c) (aarr m c) (barr m c) (biasarr m c)
        ((((cfg0.win 5).blk t).view.emb y) 0) ((((cfg0.win 5).blk t).view.emb y) 1)
  refine (congrArg (outsAt0 m c t.val t.isLt).1 hy).trans ?_
  exact blk_value m c t h3 _ _ _ _
    (by show win0_5.index t 0 * 1024 + 1 * (y 0).val = t.val / 16 * 1024 + (y 0).val; rw [e9]; omega)
    (by show win0_5.index t 1 * 1024 + 1 * (y 1).val = t.val / 4 % 4 * 1024 + (y 1).val; rw [e10]; omega)

/-- An index of the merged output is in point t's block iff each coordinate is in the block's range. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v1).slice (win0_5.rect t)).set ↔ _
  rw [View.set_slice_whole, Rect.mem_set_unit]
  exact Iff.rfl

/-- Every index of the merged output is written: row block i₀ / 1024 and column block i₁ / 1024 are written at
    the last point of their run of four. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 128 := N_0
  have hlt : (i 0).val / 1024 * 16 + (i 1).val / 1024 * 4 + 3 < cfg0.N := by omega
  refine ⟨⟨(i 0).val / 1024 * 16 + (i 1).val / 1024 * 4 + 3, hlt⟩,
    (flush0_5 _).mpr (by show ((i 0).val / 1024 * 16 + (i 1).val / 1024 * 4 + 3) % 4 = 3; omega), ?_⟩
  obtain ⟨-, -, -, -, -, -, -, -, -, e9, e10⟩ := idx_facts ⟨(i 0).val / 1024 * 16 + (i 1).val / 1024 * 4 + 3, hlt⟩
  rw [mem_blk]
  intro a
  match a with
  | ⟨0, _⟩ =>
    show win0_5.index _ 0 * 1024 ≤ (i 0).val ∧ (i 0).val < win0_5.index _ 0 * 1024 + 1024
    rw [e9]; dsimp only; omega
  | ⟨1, _⟩ =>
    show win0_5.index _ 1 * 1024 ≤ (i 1).val ∧ (i 1).val < win0_5.index _ 1 * 1024 + 1024
    rw [e10]; dsimp only; omega

/-- The merged output after the region is the layer's output. -/
theorem final (c : Dev nD) : (dats m 0 c).arrAt 5 cfg0.N = G m c :=
  (dats m 0 c).arrAt_eq_of_cover 5 (G m c) (flushed_eq m c) cover

/-! ## The host operation after the region, and the run -/

/-- The result buffer: the merged output with its row axis split back into (4, 2048). -/
theorem tail_eq (c : Dev nD) :
    Pipeline.afterTail₀ cfgs (dats m) 0 (V0 m) [hostOps1] c main_v2
      = shapeCast S4x2048x4096 (G m c) shapeCasts_S8192x4096_S4x2048x4096 := by
  unfold Pipeline.afterTail₀
  show StableHlo.after hostOps1 _ (Proc.devRef .tc main_v2) = _
  after_results
  exact congrArg (fun v => shapeCast S4x2048x4096 v shapeCasts_S8192x4096_S4x2048x4096)
    ((Pipeline.withArrays_arr spec0 launch0.win.arr_inj c _ _ 5).trans (final m c))

/-- Entry (b, s, o) of the result is the layer's entry: the split reads row 2048·b + s of the merged output, and
    the merged input's row 2048·b + s is the input's (b, s). -/
theorem result_apply (c : Dev nD) (b : Fin 4) (s : Fin 2048) (o : Fin 4096) :
    shapeCast S4x2048x4096 (G m c) shapeCasts_S8192x4096_S4x2048x4096 (ix3 b s o)
      = Cert.Lora.outAt (m ((c : Thread nD τ).loc main_arg0)) (m ((c : Thread nD τ).loc main_arg1))
          (m ((c : Thread nD τ).loc main_arg2)) (m ((c : Thread nD τ).loc main_arg3)) (m ((c : Thread nD τ).loc main_arg4)) b s o := by
  have hb := b.isLt
  have hs := s.isLt
  have hrow : b.val * 2048 + s.val < 8192 := by omega
  rw [shapeCast_apply (s := S8192x4096) (t := S4x2048x4096) (G m c) shapeCasts_S8192x4096_S4x2048x4096 (ix3 b s o) (ix2 (⟨b.val * 2048 + s.val, hrow⟩ : Fin 8192) o)
    (by
      show (S8192x4096.rowMajor (ix2 (⟨b.val * 2048 + s.val, hrow⟩ : Fin 8192) o)).val = (S4x2048x4096.rowMajor (ix3 b s o)).val
      rw [Shape.rowMajor_val_two, Shape.rowMajor_val_three]
      show (b.val * 2048 + s.val) * 4096 + o.val = (b.val * 2048 + s.val) * 4096 + o.val
      rfl)]
  show Cert.Lora.flatAt (xarr m c) (warr m c) (aarr m c) (barr m c) (biasarr m c) (⟨b.val * 2048 + s.val, hrow⟩ : Fin 8192) o = _
  unfold Cert.Lora.flatAt Cert.Lora.outAt
  rw [show warr m c = m ((c : Thread nD τ).loc main_arg1) from V_main_arg1 m c,
    show aarr m c = m ((c : Thread nD τ).loc main_arg2) from V_main_arg2 m c,
    show barr m c = m ((c : Thread nD τ).loc main_arg3) from V_main_arg3 m c,
    show biasarr m c = m ((c : Thread nD τ).loc main_arg4) from V_main_arg4 m c]
  refine congrArg (· + m ((c : Thread nD τ).loc main_arg4) (ix1 o)) (Finset.sum_congr rfl fun d _ => ?_)
  refine congrArg (· * Cert.Lora.weff (m ((c : Thread nD τ).loc main_arg1)) (m ((c : Thread nD τ).loc main_arg2)) (m ((c : Thread nD τ).loc main_arg3)) o d) ?_
  rw [xarr_eq m c]
  exact shapeCast_apply (s := S4x2048x4096) (t := S8192x4096) (m ((c : Thread nD τ).loc main_arg0)) shapeCasts_S4x2048x4096_S8192x4096
    (ix2 (⟨b.val * 2048 + s.val, hrow⟩ : Fin 8192) d) (ix3 b s d)
    (by
      show (S4x2048x4096.rowMajor (ix3 b s d)).val = (S8192x4096.rowMajor (ix2 (⟨b.val * 2048 + s.val, hrow⟩ : Fin 8192) d)).val
      rw [Shape.rowMajor_val_two, Shape.rowMajor_val_three]
      show (b.val * 2048 + s.val) * 4096 + d.val = (b.val * 2048 + s.val) * 4096 + d.val
      rfl)

/-- The result buffer holds the layer's output of the launch contents of the five arguments. -/
theorem result_eq (c : Dev nD) :
    shapeCast S4x2048x4096 (G m c) shapeCasts_S8192x4096_S4x2048x4096
      = Cert.Lora.out (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨b, s, o, rfl⟩ : ∃ (b : Fin 4) (s : Fin 2048) (o : Fin 4096), i = ix3 b s o := ⟨i 0, i 1, i 2, eq_ix3 i⟩
  exact result_apply m c b s o

/-- Every weakly fair execution of the idealized kernel terminates with the result at the layer's output and the
    five arguments unchanged. -/
theorem run : θ_run defs (onTc (τ := τ) (main (F := Ideal))) ⟨m, fun _ => 0, ρ⟩ fun r => ∀ c : Dev nD,
      r.2.mem ((c : Thread nD τ).loc main_v2)
        = Cert.Lora.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(((h c).2 main_v2 (Pipeline.mem_restRefs_of main_v2 (by decide) (by decide))).trans (tail_eq m c)).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KValue

end
-- ==== Proof.lean ====
/-
  A LoRA linear layer: out = x · (W + 2 · B · A)ᵀ + bias, with x of shape [4, 2048, 4096], W [4096, 4096],
  A [16, 4096], B [4096, 16] and bias [4096].

  The kernel merges the two leading axes of x, tiles the product into 1024 × 1024 blocks over a grid of
  8 × 4 × 4 points, rebuilds the effective weight block W + 2 · B · A at every point, and accumulates the
  contraction axis in four blocks of 1024 in a scratch buffer that is zeroed at the first block and written out,
  with the bias added, after the last. The reference forms the effective weight once and contracts the whole
  axis in one einsum.

  Over the extended reals the two are the same function: narrowing the operands to bf16 is the identity on exact
  values, the matrix unit's product into a zero accumulator is the plain sum of products, and the kernel's
  accumulation ((((0 + P₀) + P₁) + P₂) + P₃) of the four block sums is the whole sum by commutativity and
  associativity of addition alone, so no finiteness of the inputs is needed and the precondition is never opened.
  Both sides print the scale 2 as the same float word, which is never evaluated.

  The three frames are the generated ones (the reference's is its generated run with the result dropped); the
  idealization rewrote nothing, so the preservation conjunct is trivial; the algebraic conjunct joins the
  kernel's run (Proof/KernelValue.lean) and the reference's run read index by index (Proof/RefValue.lean) at the
  layer's function (Proof/LoraLinear.lean).
-/
import proofs.«133577_j11055245819948_1_alg».proof.Defs
import proofs.«133577_j11055245819948_1_alg».proof.Proof.Gen.Kernel
import proofs.«133577_j11055245819948_1_alg».proof.Proof.Gen.Kernel.Skeleton
import proofs.«133577_j11055245819948_1_alg».proof.Proof.Gen.Kernel.Launch
import proofs.«133577_j11055245819948_1_alg».proof.Proof.Gen.Kernel.Points
import proofs.«133577_j11055245819948_1_alg».proof.Proof.Gen.Kernel.Frame
import proofs.«133577_j11055245819948_1_alg».proof.Proof.Gen.KernelIdeal
import proofs.«133577_j11055245819948_1_alg».proof.Proof.Gen.KernelIdeal.Skeleton
import proofs.«133577_j11055245819948_1_alg».proof.Proof.Gen.KernelIdeal.Launch
import proofs.«133577_j11055245819948_1_alg».proof.Proof.Gen.KernelIdeal.Points
import proofs.«133577_j11055245819948_1_alg».proof.Proof.Gen.KernelIdeal.Frame
import proofs.«133577_j11055245819948_1_alg».proof.Proof.Gen.ReferenceIdeal
import proofs.«133577_j11055245819948_1_alg».proof.Proof.Gen.ReferenceIdeal.Run
import proofs.«133577_j11055245819948_1_alg».proof.Proof.Gen.ReferenceIdeal.Read
import proofs.«133577_j11055245819948_1_alg».proof.Proof.Gen.Pre_finite_inputs
import proofs.«133577_j11055245819948_1_alg».proof.Proof.RefValue
import proofs.«133577_j11055245819948_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is nine host operations in a row: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer's output of those arguments. -/
theorem algebraic : Cert.algebraic_KernelIdeal_ReferenceIdeal := by
  intro m ρ m' ρ' _ hagree
  refine ⟨fun c => Cert.Lora.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.val_eq_out,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
